-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16x1024 : Shape := ⟨3, ![1024, 16, 1024]⟩
abbrev S_ : Shape := ⟨0, ![]⟩

class Facts : Prop where
  bcast_S_S1024x16x1024 : S_.BroadcastsInDim S1024x16x1024 (![] : Fin 0 → Fin S1024x16x1024.rank)
  reducesTo_S1024x16x1024_S_d0_1_2 : S1024x16x1024.ReducesTo [0, 1, 2] S_
  h_S_ : 0 < S_.numel
  reducesTo_S_S_d : S_.ReducesTo [] S_

variable [Facts]

def fn {F : FTy → Type} [FloatOps F] (main_arg0 : FVec F S1024x16x1024 .f32) (main_arg1 : FVec F S_ .f32) : IVec S_ 1 :=
  let main_v0 : FVec F S1024x16x1024 .f32 := Host.absf main_arg0
  let main_cst : FVec F S_ .f32 := constant S_ .f32 0x7F800000#32
  let main_v1 : FVec F S1024x16x1024 .f32 := broadcastInDim S1024x16x1024 ![] bcast_S_S1024x16x1024 main_cst
  let main_v2 : IVec S1024x16x1024 1 := cmpf .olt main_v0 main_v1
  let main_c : IVec S_ 1 := constantI S_ 1 1#1
  let main_v3 : IVec S_ 1 := (fun x v => Host.reduce IntOp.andi x v reducesTo_S1024x16x1024_S_d0_1_2 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S1024x16x1024 : Shape := ⟨3, ![1024, 16, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1024x16384 : Shape := ⟨2, ![1024, 16384]⟩
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 33
  | .vmem => 6
  | .smem => 0
  | _ => 0

abbrev bufTy : (tb : Table) → Fin (tcTables nBuf tb) → BufTy
  | .hbm, ⟨0, _⟩ => ⟨S1024x16x1024, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024, .i32⟩
  | .hbm, ⟨9, _⟩ => ⟨S1024x1, .i32⟩
  | .hbm, ⟨10, _⟩ => ⟨S1024, .i32⟩
  | .hbm, ⟨11, _⟩ => ⟨S1x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S_, .i32⟩
  | .hbm, ⟨20, _⟩ => ⟨S1024x1024, .i32⟩
  | .hbm, ⟨21, _⟩ => ⟨S1024x1024, .i32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x16384, .f32⟩
  | .hbm, ⟨29, _⟩ => ⟨S1024x1024, .bf16⟩
  | .hbm, ⟨30, _⟩ => ⟨S1024x16384, .bf16⟩
  | .hbm, ⟨31, _⟩ => ⟨S1024x16384, .f32⟩
  | .hbm, ⟨32, _⟩ => ⟨S1024x16x1024, .f32⟩
  | .local _ .vmem, ⟨0, _⟩ => ⟨S256x1024, .bf16⟩
  | .local _ .vmem, ⟨1, _⟩ => ⟨S256x1024, .bf16⟩
  | .local _ .vmem, ⟨2, _⟩ => ⟨S1024x2048, .bf16⟩
  | .local _ .vmem, ⟨3, _⟩ => ⟨S1024x2048, .bf16⟩
  | .local _ .vmem, ⟨4, _⟩ => ⟨S256x2048, .f32⟩
  | .local _ .vmem, ⟨5, _⟩ => ⟨S256x2048, .f32⟩
  | _, _ => ⟨S1024x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  shapeCasts_S1024x16x1024_S1024x16384 : S1024x16x1024.ShapeCasts S1024x16384
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S1024x16384_S1024x16x1024 : S1024x16384.ShapeCasts S1024x16x1024
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .bf16 = 32 ∨ (Rect.block (s := S1024x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x16384.size a
  hwx0_1 : ∀ i : grid0.Coords, EltTy.bits .bf16 = 32 ∨ (Rect.block (s := S1024x16384) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S1024x16384.size a
  hwx0_2 : ∀ i : grid0.Coords, EltTy.bits .f32 = 32 ∨ (Rect.block (s := S1024x16384) S256x2048.size (cc0_transform_2 i) (hinb0_2 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_v19) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x16x1024 : Shape := ⟨3, ![1024, 16, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1024x16384 : Shape := ⟨2, ![1024, 16384]⟩

abbrev nBuf : Space → Nat
  | .hbm => 31
  | .vmem => 0
  | .smem => 0
  | _ => 0

abbrev bufTy : (tb : Table) → Fin (tcTables nBuf tb) → BufTy
  | .hbm, ⟨0, _⟩ => ⟨S1024x16x1024, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024, .i32⟩
  | .hbm, ⟨9, _⟩ => ⟨S1024x1, .i32⟩
  | .hbm, ⟨10, _⟩ => ⟨S1024, .i32⟩
  | .hbm, ⟨11, _⟩ => ⟨S1x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S_, .i32⟩
  | .hbm, ⟨20, _⟩ => ⟨S1024x1024, .i32⟩
  | .hbm, ⟨21, _⟩ => ⟨S1024x1024, .i32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x16384, .f32⟩
  | .hbm, ⟨29, _⟩ => ⟨S1024x16384, .f32⟩
  | .hbm, ⟨30, _⟩ => ⟨S1024x16x1024, .f32⟩
  | _, _ => ⟨S1024x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  shapeCasts_S1024x16x1024_S1024x16384 : S1024x16x1024.ShapeCasts S1024x16384
  shapeCasts_S1024x16384_S1024x16x1024 : S1024x16384.ShapeCasts S1024x16x1024
  dot_S1024x1024_S1024x16384_S1024x16384_1_0_0_1_n_n_wf : DotDims.WF S1024x1024 S1024x16384 S1024x16384 [1] [0] [0] [1] [] []

variable [Facts₀]

def dot_S1024x1024_S1024x16384_S1024x16384_1_0_0_1_n_n : DotDims S1024x1024 S1024x16384 S1024x16384 where
  lhsContracting := [1]
  rhsContracting := [0]
  lhsNonContracting := [0]
  rhsNonContracting := [1]
  lhsBatch := []
  rhsBatch := []
  wf := dot_S1024x1024_S1024x16384_S1024x16384_1_0_0_1_n_n_wf

class Facts : Prop extends Facts₀ where

variable [Facts]
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.MatProd.lean ====
/-
  The specification: the product of a 1024×1024 matrix A (the lower-triangular decay matrix) with a 1024×16384
  matrix X (the sequence with its batch and feature axes flattened), as ONE function of the two arrays, index by
  index over the extended reals:  (A · X)(r, q) = Σ_k A(r, k) · X(k, q),  k over the 1024 contracted positions.
  Both programs compute this function. The kernel computes it block by block: an output block of 256 rows and 2048
  columns is the product of the 256 rows of A it needs (all 1024 columns) with the 2048 columns of X it needs (all
  1024 rows), so the contracted axis is never split and each block's sum is the whole sum.
-/
import Idealize.ShloMosaic.PureOps.Ideal.Laws
import Idealize.ShloMosaic.Lib.ValueIdx
import proofs.«109937_j71889162600690_1_alg».proof.Proof.LibPlainDot

noncomputable section

open scoped BigOperators

namespace DecayProduct

open Idealize.ShloMosaic Idealize.ShloMosaic.ValueIdx

/-- (A · X)(r, q) = Σ_k A(r, k) · X(k, q). -/
def matProd (A : (⟨2, ![1024, 1024]⟩ : Shape).Idx → EReal) (X : (⟨2, ![1024, 16384]⟩ : Shape).Idx → EReal) :
    (⟨2, ![1024, 16384]⟩ : Shape).Idx → EReal :=
  fun i => ∑ k : Fin 1024, A (ix2 (n0 := 1024) (n1 := 1024) ⟨(i 0).val, (i 0).isLt⟩ k)
    * X (ix2 (n0 := 1024) (n1 := 16384) k ⟨(i 1).val, (i 1).isLt⟩)

/-- The host's product of the two whole arrays is that function. -/
theorem dotGeneral_eq (sched : HostSchedule) (A : FVec Ideal ⟨2, ![1024, 1024]⟩ .f32) (X : FVec Ideal ⟨2, ![1024, 16384]⟩ .f32) :
    FloatOps.dotGeneral (DotDims.plain 1024 1024 16384) none sched A X = matProd A X :=
  funext fun i => PlainDot.dotGeneral_apply 1024 1024 16384 sched A X i

/-- One block of the kernel: the product, into a zero accumulator, of a 256×1024 block with a 1024×2048 block, at
    an index of the 256×2048 result, is the sum over the whole contracted axis. -/
theorem block_apply (a : FVec Ideal ⟨2, ![256, 1024]⟩ .bf16) (x : FVec Ideal ⟨2, ![1024, 2048]⟩ .bf16)
    (y : (⟨2, ![256, 2048]⟩ : Shape).Idx) :
    FloatOps.matmul (DotDims.plain 256 1024 2048) none a x (constant ⟨2, ![256, 2048]⟩ .f32 0x00000000#32) y
      = ∑ k : Fin 1024, a (ix2 (n0 := 256) (n1 := 1024) ⟨(y 0).val, (y 0).isLt⟩ k)
          * x (ix2 (n0 := 1024) (n1 := 2048) k ⟨(y 1).val, (y 1).isLt⟩) :=
  PlainDot.matmul_zero_apply 256 1024 2048 a x y

end DecayProduct

end
-- ==== Proof.KernelBlock.lean ====
/-
  One grid point of the kernel. The body loads a 256×1024 block a of the decay matrix and a 1024×2048 block x of the
  flattened sequence and stores their product into a zero accumulator, so the stored block at (p, q) is
  Σ_k a(p, k) · x(k, q) over all 1024 contracted positions. The two shape casts in the body are between equal shapes.
-/
import proofs.«109937_j71889162600690_1_alg».proof.Proof.Gen.KernelIdeal.Skeleton
import proofs.«109937_j71889162600690_1_alg».proof.Proof.MatProd
import Idealize.ShloMosaic.Lib.Pipeline.Value
import Idealize.ShloMosaic.Lib.ValueIdx

noncomputable section

open scoped BigOperators

namespace Cert.KernelIdeal.DecayValue

open Cert.KernelIdeal Cert.KernelIdeal.Gen Idealize.ShloMosaic Idealize.ShloMosaic.ValueIdx

/-- The stored block, at an index, is the sum over the contracted axis of the two loaded blocks. -/
theorem pay_apply (a : Vec Ideal S256x1024 .bf16) (x : Vec Ideal S1024x2048 .bf16) (y : S256x2048.Idx) :
    k0_pay1 (F := Ideal) a x y
      = ∑ k : Fin 1024, a (ix2 (n0 := 256) (n1 := 1024) ⟨(y 0).val, (y 0).isLt⟩ k)
          * x (ix2 (n0 := 1024) (n1 := 2048) k ⟨(y 1).val, (y 1).isLt⟩) := by
  unfold k0_pay1
  dsimp only
  rw [shapeCast_self, shapeCast_self]
  exact DecayProduct.block_apply a x y

end Cert.KernelIdeal.DecayValue

end
-- ==== Proof.KernelArray.lean ====
/-
  From blocks to the whole product. The grid has 8 × 4 points; the point with block coordinates (bi, bj) — bi the
  row block of 256 rows, bj the column block of 2048 columns — reads rows 256·bi … 256·bi + 255 of the decay matrix
  (all 1024 columns) and columns 2048·bj … 2048·bj + 2047 of the flattened sequence (all 1024 rows), and writes the
  256 × 2048 block of the result at (bi, bj). Since a block's entry at (p, q) is Σ_k a(p, k) · x(k, q) over the WHOLE
  contracted axis, it is the entry (256·bi + p, 2048·bj + q) of the product of the two whole arrays; the 32 blocks
  tile the 1024 × 16384 result, so after the run the result array is that product.
-/
import proofs.«109937_j71889162600690_1_alg».proof.Proof.Gen.KernelIdeal.Frame
import proofs.«109937_j71889162600690_1_alg».proof.Proof.KernelBlock
import Idealize.ShloMosaic.Lib.Pipeline.Value
import Idealize.ShloMosaic.Lib.ValueIdx

noncomputable section

open scoped BigOperators

open Idealize.ShloMosaic Idealize.ShloMosaic.TcCoe Idealize.SL.Sem
open Idealize.ShloMosaic.Pipeline (Dat)

namespace Cert.KernelIdeal.DecayValue

open Cert.KernelIdeal Cert.KernelIdeal.Gen Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The decay matrix and the flattened sequence as the region finds them, and their blocks at a point. -/
abbrev decayArr (c : Dev nD) : Vec Ideal S1024x1024 .bf16 := V m c main_v19
abbrev seqArr (c : Dev nD) : Vec Ideal S1024x16384 .bf16 := V m c main_v20
abbrev decayBlk (c : Dev nD) (t : Fin cfg0.N) : Vec Ideal S256x1024 .bf16 := iblk m c 0 t
abbrev seqBlk (c : Dev nD) (t : Fin cfg0.N) : Vec Ideal S1024x2048 .bf16 := iblk m c 1 t

/-- The block coordinates of the three windows at a point: the decay block is the output's row block and the only
    column block; the sequence block is the only row block and the output's column block. -/
theorem idx_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3
    ∧ win0_2.index t (1 : Fin 2) ≤ 7 :=
  (by decide +kernel : ∀ t : Fin grid0.N, _)

/-- Every block of the result is some point's. -/
theorem idx_onto : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- The decay block at a point: row p of the block is row 256·bi + p of the matrix, same column. -/
theorem decayBlk_apply (c : Dev nD) (t : Fin cfg0.N) (y : S256x1024.Idx) (i : S1024x1024.Idx)
    (h0 : (i 0).val = win0_2.index t (0 : Fin 2) * 256 + (y 0).val) (h1 : (i 1).val = (y 1).val) :
    decayBlk m c t y = decayArr m c i := by
  obtain ⟨e0, e1, -, -, -, -⟩ := idx_facts t
  show iblk m c 0 t y = _
  unfold iblk
  rw [View.read_apply]
  show V m c main_v19 _ = V m c main_v19 _
  congr 1
  funext a
  apply Fin.ext
  match a with
  | ⟨0, _⟩ => show win0_0.index t (0 : Fin 2) * 256 + 1 * (y 0).val = (i 0).val; rw [h0, e0]; omega
  | ⟨1, _⟩ => show win0_0.index t (1 : Fin 2) * 1024 + 1 * (y 1).val = (i 1).val; rw [h1, e1]; omega

/-- The sequence block at a point: column q of the block is column 2048·bj + q of the flattened sequence, same row. -/
theorem seqBlk_apply (c : Dev nD) (t : Fin cfg0.N) (y : S1024x2048.Idx) (i : S1024x16384.Idx)
    (h0 : (i 0).val = (y 0).val) (h1 : (i 1).val = win0_2.index t (1 : Fin 2) * 2048 + (y 1).val) :
    seqBlk m c t y = seqArr m c i := by
  obtain ⟨-, -, e2, e3, -, -⟩ := idx_facts t
  show iblk m c 1 t y = _
  unfold iblk
  rw [View.read_apply]
  show V m c main_v20 _ = V m c main_v20 _
  congr 1
  funext a
  apply Fin.ext
  match a with
  | ⟨0, _⟩ => show win0_1.index t (0 : Fin 2) * 1024 + 1 * (y 0).val = (i 0).val; rw [h0, e2]; omega
  | ⟨1, _⟩ => show win0_1.index t (1 : Fin 2) * 2048 + 1 * (y 1).val = (i 1).val; rw [h1, e3]; omega

/-- What a point writes back is its block of the product of the two whole arrays. -/
theorem flushed_eq (c : Dev nD) (t : Fin cfg0.N) :
    (dats m 0 c).flushed 2 t
      = ((cfg0.win 2).blk t).view.read (Elt Ideal) (DecayProduct.matProd (decayArr m c) (seqArr m c)) := by
  show (cfg0.win 2).cut (grid0.coords t) ((dats m 0 c).after 2 t) = _
  rw [after0_2]
  unfold out0_2
  rw [View.canon_unit_zero hz]
  simp only [View.ld_unit_zero (S := S256x1024) hz, View.ld_unit_zero (S := S1024x2048) hz]
  funext y
  show k0_pay1 (F := Ideal) (decayBlk m c t) (seqBlk m c t) y
    = DecayProduct.matProd (decayArr m c) (seqArr m c) (((cfg0.win 2).blk t).view.emb y)
  refine (pay_apply (decayBlk m c t) (seqBlk m c t) y).trans ?_
  unfold DecayProduct.matProd
  refine Finset.sum_congr rfl fun k _ => ?_
  refine congrArg₂ (· * ·) (decayBlk_apply m c t _ _ ?_ ?_) (seqBlk_apply m c t _ _ ?_ ?_)
  · show win0_2.index t (0 : Fin 2) * 256 + 1 * (y 0).val = win0_2.index t (0 : Fin 2) * 256 + (y 0).val; omega
  · rfl
  · rfl
  · show win0_2.index t (1 : Fin 2) * 2048 + 1 * (y 1).val = win0_2.index t (1 : Fin 2) * 2048 + (y 1).val; omega

/-- An index of the result is in a point's block iff each coordinate is in the block's range on its axis. -/
theorem mem_blk (t : Fin cfg0.N) (i : S1024x16384.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v21).slice (win0_2.rect t)).set ↔ _
  rw [View.set_slice_whole, Rect.mem_set_unit]
  exact Iff.rfl

/-- The blocks tile the result: the entry (r, q) is in the block (r / 256, q / 2048). -/
theorem cover (i : S1024x16384.Idx) :
    ∃ t : Fin cfg0.N, (cfg0.win 2).flush t = true ∧ i ∈ ((cfg0.win 2).blk t).view.set := by
  have hi0 : (i 0).val < 1024 := (i 0).isLt
  have hi1 : (i 1).val < 16384 := (i 1).isLt
  obtain ⟨t, ht⟩ := idx_onto ⟨(i 0).val / 256, by omega⟩ ⟨(i 1).val / 2048, by omega⟩
  have q0 : win0_2.index t (0 : Fin 2) = (i 0).val / 256 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- After the run the result array of the region is the product of the two arrays the region found. -/
theorem final (c : Dev nD) :
    (dats m 0 c).arrAt 2 cfg0.N = DecayProduct.matProd (decayArr m c) (seqArr m c) :=
  (dats m 0 c).arrAt_eq_of_cover 2 (DecayProduct.matProd (decayArr m c) (seqArr m c))
    (fun t _ => flushed_eq m c t) cover

end Cert.KernelIdeal.DecayValue

end
-- ==== Proof.KernelRun.lean ====
/-
  The whole kernel program, read. Before the region the host builds the decay matrix
  D(i, j) = σ(β)^(i − j) for j ≤ i and 0 above the diagonal (σ the logistic function of the scalar parameter β),
  flattens the sequence's batch and feature axes into one axis of 16 · 1024 columns, and narrows both to bf16 — a
  change of format, which over the extended reals is the identity. The region leaves the product of the two in its
  result array, and the one host operation after it restores the three axes. So the program's result is
  reshape (D · flatten x), the arguments unchanged.
-/
import proofs.«109937_j71889162600690_1_alg».proof.Proof.Gen.KernelIdeal.Frame
import proofs.«109937_j71889162600690_1_alg».proof.Proof.KernelArray
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.DecayValue

open Cert.KernelIdeal Cert.KernelIdeal.Gen Idealize.ShloMosaic.StableHlo

variable (m : (ℓ : Loc nD τ sig) → Buf (Elt Ideal) ℓ) (ρ : Dev nD → PrngReg)

/-- The decay matrix as the host operations before the region build it from the scalar parameter: σ(β) to the power
    max(i − j, 0), kept where j ≤ i and replaced by zero elsewhere. -/
def decay {F : FTy → Type} [FloatOps F] (x : (⟨S_, .f32⟩ : BufTy).Contents (Elt F)) : (⟨S1024x1024, .f32⟩ : BufTy).Contents (Elt F) :=
  select (cmpi .sge (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0)))) (broadcastInDim S1024x1024 ![] bcast_S_S1024x1024 (constantI S_ 32 0#32))) (Host.powf (broadcastInDim S1024x1024 ![] bcast_S_S1024x1024 (Host.divf (constant S_ .f32 0x3F800000#32) (addf (constant S_ .f32 0x3F800000#32) (Host.exp (Host.negf x))))) (sitofp .f32 (select (cmpi .sge (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0)))) (broadcastInDim S1024x1024 ![] bcast_S_S1024x1024 (constantI S_ 32 0#32))) (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0)))) (broadcastInDim S1024x1024 ![] bcast_S_S1024x1024 (id (constantI S_ 32 0#32)))))) (broadcastInDim S1024x1024 ![] bcast_S_S1024x1024 (constant S_ .f32 0x00000000#32))

/-- The sequence with its batch and feature axes flattened into one. -/
def flatSeq {F : FTy → Type} [FloatOps F] (x : (⟨S1024x16x1024, .f32⟩ : BufTy).Contents (Elt F)) : (⟨S1024x16384, .f32⟩ : BufTy).Contents (Elt F) :=
  shapeCast _ x shapeCasts_S1024x16x1024_S1024x16384

set_option maxHeartbeats 2000000 in
/-- The region finds the decay matrix of the scalar argument in its first window's array (the narrowing to bf16 is
    the identity here). -/
theorem decayArr_eq (c : Dev nD) : decayArr m c = decay (F := Ideal) (m ((c.tc : Thread nD τ).loc main_arg1)) := by
  show V m c main_v19 = _
  dsimp only [V, V0]
  simp only [hostOps0, hostOps0_1, hostOps0_2, hostOps0_3, hostOps0_4, List.flatten_cons, List.flatten_nil,
    List.append_nil, List.cons_append, List.nil_append]
  after_results
  rfl

set_option maxHeartbeats 2000000 in
/-- And the flattened sequence argument in its second window's array. -/
theorem seqArr_eq (c : Dev nD) : seqArr m c = flatSeq (F := Ideal) (m ((c.tc : Thread nD τ).loc main_arg0)) := by
  show V m c main_v20 = _
  dsimp only [V, V0]
  simp only [hostOps0, hostOps0_1, hostOps0_2, hostOps0_3, hostOps0_4, List.flatten_cons, List.flatten_nil,
    List.append_nil, List.cons_append, List.nil_append]
  after_results
  rfl

/-- The program's result as one function of its two arguments. -/
def result (x0 : (⟨S1024x16x1024, .f32⟩ : BufTy).Contents (Elt Ideal)) (x1 : (⟨S_, .f32⟩ : BufTy).Contents (Elt Ideal)) :
    (⟨S1024x16x1024, .f32⟩ : BufTy).Contents (Elt Ideal) :=
  shapeCast _ (DecayProduct.matProd (decay (F := Ideal) x1) (flatSeq (F := Ideal) x0)) shapeCasts_S1024x16384_S1024x16x1024

/-- What the host operation after the region leaves in the result buffer. -/
theorem tail_eq (c : Dev nD) :
    Pipeline.afterTail₀ cfgs (dats m) 0 (V0 m) [hostOps1] c main_v22
      = result (m ((c.tc : Thread nD τ).loc main_arg0)) (m ((c.tc : Thread nD τ).loc main_arg1)) := by
  unfold Pipeline.afterTail₀
  show StableHlo.after hostOps1 _ (Proc.devRef .tc main_v22) = _
  after_results
  unfold result
  rw [← decayArr_eq m c, ← seqArr_eq m c, ← final m c]
  exact congrArg (fun v => shapeCast _ v shapeCasts_S1024x16384_S1024x16x1024)
    (Pipeline.withArrays_arr spec0 launch0.win.arr_inj c _ _ 2)

/-- The run: every weakly fair execution terminates with the result buffer at `result` of the arguments and the
    arguments unchanged. -/
theorem run : θ_run defs (onTc (τ := τ) (main (F := Ideal))) ⟨m, fun _ => 0, ρ⟩ fun r => ∀ c : Dev nD,
      r.2.mem ((c.tc : Thread nD τ).loc main_v22)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v22 (Pipeline.mem_restRefs_of main_v22 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.DecayValue

end
-- ==== Proof.RefValue.lean ====
/-
  The reference, read. Its matrix product of the decay matrix with the flattened sequence is, entry by entry, the sum
  over the 1024 contracted positions of decay(r, k) · sequence(k, q): the same function the kernel's blocks assemble.
  Its result is that product with the three axes restored.
-/
import proofs.«109937_j71889162600690_1_alg».proof.Proof.Gen.ReferenceIdeal.Read
import proofs.«109937_j71889162600690_1_alg».proof.Proof.MatProd
import Idealize.ShloMosaic.Lib.ValueIdx

noncomputable section

open scoped BigOperators

namespace Cert.ReferenceIdeal.DecayRef

open Cert.ReferenceIdeal Cert.ReferenceIdeal.Gen Cert.ReferenceIdeal.Read Idealize.ShloMosaic Idealize.ShloMosaic.ValueIdx

/-- The reference's product stage is the product of its two operand stages as one function. -/
theorem product_eq (x0 : (⟨S1024x16x1024, .f32⟩ : BufTy).Contents (Elt Ideal)) (x1 : (⟨S_, .f32⟩ : BufTy).Contents (Elt Ideal)) :
    val_main_v19 (F := Ideal) x0 x1
      = DecayProduct.matProd (val_main_v17 (F := Ideal) x1) (val_main_v18 (F := Ideal) x0) := by
  funext i
  rw [val_main_v19_apply]
  unfold DecayProduct.matProd
  refine Finset.sum_congr rfl fun k _ => ?_
  have el : lidx_main_v19 i k = ix2 (n0 := 1024) (n1 := 1024) ⟨(i 0).val, (i 0).isLt⟩ k :=
    funext fun a => by match a with | ⟨0, _⟩ => rfl | ⟨1, _⟩ => rfl
  have er : ridx_main_v19 i k = ix2 (n0 := 1024) (n1 := 16384) k ⟨(i 1).val, (i 1).isLt⟩ :=
    funext fun a => by match a with | ⟨0, _⟩ => rfl | ⟨1, _⟩ => rfl
  rw [el, er]

/-- The reference's result: the product, reshaped to the sequence's three axes. -/
theorem result_eq (x0 : (⟨S1024x16x1024, .f32⟩ : BufTy).Contents (Elt Ideal)) (x1 : (⟨S_, .f32⟩ : BufTy).Contents (Elt Ideal)) :
    val_main_v20 (F := Ideal) x0 x1
      = shapeCast _ (DecayProduct.matProd (val_main_v17 (F := Ideal) x1) (val_main_v18 (F := Ideal) x0))
          shapeCasts_S1024x16384_S1024x16x1024 := by
  unfold val_main_v20
  rw [product_eq]

end Cert.ReferenceIdeal.DecayRef

end
-- ==== Proof.lean ====
/-
  A causal exponential-decay mixing of a sequence along time, y = D · x, where D(i, j) = σ(β)^(i − j) for j ≤ i and 0
  above the diagonal (σ the logistic function of the scalar parameter β), x is the sequence [time, batch, feature]
  with batch and feature flattened into 16 · 1024 columns, and the product is restored to three axes at the end.

  Both programs build D and the flattened x with the same host operations. The kernel narrows both to bf16 (over the
  extended reals a change of format is the identity) and computes the product in 8 × 4 blocks of 256 rows by 2048
  columns, each block the product of 256 whole rows of D with 2048 whole columns of x into a zero accumulator: the
  contracted time axis is never split, so a block's entry is the whole sum Σ_k D(r, k) · x(k, q). The reference
  computes the same sums in one product. Sums of the same terms over the same index set are equal over the extended
  reals with no condition on the inputs, so the finiteness precondition is never used.

  The kernel's frame is the generated one at both instances; the reference's frame is its generated run with the
  result dropped; the idealization rewrote nothing, so there is nothing to preserve.
-/
import proofs.«109937_j71889162600690_1_alg».proof.Defs
import proofs.«109937_j71889162600690_1_alg».proof.Proof.Gen.Kernel.Frame
import proofs.«109937_j71889162600690_1_alg».proof.Proof.Gen.KernelIdeal.Frame
import proofs.«109937_j71889162600690_1_alg».proof.Proof.Gen.ReferenceIdeal.Run
import proofs.«109937_j71889162600690_1_alg».proof.Proof.Gen.ReferenceIdeal.Read
import proofs.«109937_j71889162600690_1_alg».proof.Proof.Gen.Pre_finite_inputs
import proofs.«109937_j71889162600690_1_alg».proof.Proof.KernelRun
import proofs.«109937_j71889162600690_1_alg».proof.Proof.RefValue

noncomputable section

namespace Cert.Proof

open Idealize.ShloMosaic Idealize.SL.Sem

/-- The two programs build the decay matrix from the scalar parameter by the same operations. -/
theorem decay_eq (x : (⟨Cert.ReferenceIdeal.S_, .f32⟩ : BufTy).Contents (Elt Ideal)) :
    Cert.KernelIdeal.DecayValue.decay (F := Ideal) x = Cert.ReferenceIdeal.Read.val_main_v17 (F := Ideal) x := rfl

/-- And flatten the sequence by the same reshape. -/
theorem flat_eq (x : (⟨Cert.ReferenceIdeal.S1024x16x1024, .f32⟩ : BufTy).Contents (Elt Ideal)) :
    Cert.KernelIdeal.DecayValue.flatSeq (F := Ideal) x = Cert.ReferenceIdeal.Read.val_main_v18 (F := Ideal) x := rfl

/-- So the reference's result is the kernel's: the same product of the same two arrays, reshaped the same way. -/
theorem result_eq (x0 : (⟨Cert.ReferenceIdeal.S1024x16x1024, .f32⟩ : BufTy).Contents (Elt Ideal))
    (x1 : (⟨Cert.ReferenceIdeal.S_, .f32⟩ : BufTy).Contents (Elt Ideal)) :
    Cert.ReferenceIdeal.Read.val_main_v20 (F := Ideal) x0 x1 = Cert.KernelIdeal.DecayValue.result x0 x1 := by
  rw [Cert.ReferenceIdeal.DecayRef.result_eq, ← decay_eq, ← flat_eq]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the two arguments both programs end with the reshaped product D · x of those arguments. -/
theorem algebraic : Cert.algebraic_KernelIdeal_ReferenceIdeal := by
  intro m ρ m' ρ' _ hagree
  refine ⟨fun c => Cert.KernelIdeal.DecayValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.DecayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v20_eq _ _).trans (result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
